-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x257 : S_.BroadcastsInDim S512x257 (![] : Fin 0 → Fin S512x257.rank)
  reducesTo_S512x257_S_d0_1 : S512x257.ReducesTo [0, 1] S_
  bcast_S_S1x257 : S_.BroadcastsInDim S1x257 (![] : Fin 0 → Fin S1x257.rank)
  reducesTo_S1x257_S_d0_1 : S1x257.ReducesTo [0, 1] S_
  bcast_S_S257x1 : S_.BroadcastsInDim S257x1 (![] : Fin 0 → Fin S257x1.rank)
  reducesTo_S257x1_S_d0_1 : S257x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S1x1 .f32) (main_v13 : IVec S_ 1) (main_v16 : IVec S257x1 1) : IVec S_ 1 :=
  let main_c_5 : IVec S_ 1 := constantI S_ 1 1#1
  let main_v17 : IVec S_ 1 := (fun x v => Host.reduce IntOp.andi x v reducesTo_S257x1_S_d0_1 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  main_v23

def fn {F : FTy → Type} [FloatOps F] (main_arg0 : FVec F S131072x512 .f32) (main_arg1 : FVec F S512x257 .f32) (main_arg2 : FVec F S1x257 .f32) (main_arg3 : FVec F S257x1 .f32) (main_arg4 : FVec F S1x1 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x257 .f32 := Host.absf main_arg1
  let main_cst_0 : FVec F S_ .f32 := constant S_ .f32 0x7F800000#32
  let main_v5 : FVec F S512x257 .f32 := broadcastInDim S512x257 ![] bcast_S_S512x257 main_cst_0
  let main_v6 : IVec S512x257 1 := cmpf .olt main_v4 main_v5
  let main_c_1 : IVec S_ 1 := constantI S_ 1 1#1
  let main_v7 : IVec S_ 1 := (fun x v => Host.reduce IntOp.andi x v reducesTo_S512x257_S_d0_1 h_S_) main_v6 main_c_1
  let main_v8 : IVec S_ 1 := andi main_v3 main_v7
  let main_v9 : FVec F S1x257 .f32 := Host.absf main_arg2
  let main_cst_2 : FVec F S_ .f32 := constant S_ .f32 0x7F800000#32
  let main_v10 : FVec F S1x257 .f32 := broadcastInDim S1x257 ![] bcast_S_S1x257 main_cst_2
  let main_v11 : IVec S1x257 1 := cmpf .olt main_v9 main_v10
  let main_c_3 : IVec S_ 1 := constantI S_ 1 1#1
  let main_v12 : IVec S_ 1 := (fun x v => Host.reduce IntOp.andi x v reducesTo_S1x257_S_d0_1 h_S_) main_v11 main_c_3
  let main_v13 : IVec S_ 1 := andi main_v8 main_v12
  let main_v14 : FVec F S257x1 .f32 := Host.absf main_arg3
  let main_cst_4 : FVec F S_ .f32 := constant S_ .f32 0x7F800000#32
  let main_v15 : FVec F S257x1 .f32 := broadcastInDim S257x1 ![] bcast_S_S257x1 main_cst_4
  let main_v16 : IVec S257x1 1 := cmpf .olt main_v14 main_v15
  fn_part1 (F := F) main_arg4 main_v13 main_v16
-- ==== Kernel.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S1x131072 : Shape := ⟨2, ![1, 131072]⟩
abbrev S4096x512 : Shape := ⟨2, ![4096, 512]⟩
abbrev S1x4096 : Shape := ⟨2, ![1, 4096]⟩
abbrev S1x512 : Shape := ⟨2, ![1, 512]⟩
abbrev S131072 : Shape := ⟨1, ![131072]⟩
abbrev S131072x1 : Shape := ⟨2, ![131072, 1]⟩

abbrev nBuf : Space → Nat
  | .hbm => 8
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S512x257, .f32⟩
  | .hbm, ⟨2, _⟩ => ⟨S1x257, .f32⟩
  | .hbm, ⟨3, _⟩ => ⟨S257x1, .f32⟩
  | .hbm, ⟨4, _⟩ => ⟨S1x1, .f32⟩
  | .hbm, ⟨5, _⟩ => ⟨S1x131072, .f32⟩
  | .hbm, ⟨6, _⟩ => ⟨S131072, .f32⟩
  | .hbm, ⟨7, _⟩ => ⟨S131072x1, .f32⟩
  | .local _ .vmem, ⟨0, _⟩ => ⟨S4096x512, .f32⟩
  | .local _ .vmem, ⟨1, _⟩ => ⟨S4096x512, .f32⟩
  | .local _ .vmem, ⟨2, _⟩ => ⟨S512x257, .f32⟩
  | .local _ .vmem, ⟨3, _⟩ => ⟨S257x1, .f32⟩
  | .local _ .vmem, ⟨4, _⟩ => ⟨S1x257, .f32⟩
  | .local _ .vmem, ⟨5, _⟩ => ⟨S1x1, .f32⟩
  | .local _ .vmem, ⟨6, _⟩ => ⟨S1x4096, .f32⟩
  | .local _ .vmem, ⟨7, _⟩ => ⟨S1x4096, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S257x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S257x1_S257x1_0_0 : ∀ a, (![0, 0] : Fin 2 → Nat) a + S257x1.size a ≤ S257x1.size a
  h_S257x1 : 0 < S257x1.numel
  inb_S512x257_S512x257_0_0 : ∀ a, (![0, 0] : Fin 2 → Nat) a + S512x257.size a ≤ S512x257.size a
  h_S512x257 : 0 < S512x257.numel
  inb_S1x257_S1x257_0_0 : ∀ a, (![0, 0] : Fin 2 → Nat) a + S1x257.size a ≤ S1x257.size a
  h_S1x257 : 0 < S1x257.numel
  inb_S1x1_S1x1_0_0 : ∀ a, (![0, 0] : Fin 2 → Nat) a + S1x1.size a ≤ S1x1.size a
  h_S1x1 : 0 < S1x1.numel
  inb_S4096x512_S4096x512_0_0 : ∀ a, (![0, 0] : Fin 2 → Nat) a + S4096x512.size a ≤ S4096x512.size a
  h_S4096x512 : 0 < S4096x512.numel
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  shapeCasts_S1x131072_S131072 : S1x131072.ShapeCasts S131072
  shapeCasts_S131072_S131072x1 : S131072.ShapeCasts S131072x1
  dot_S257x1_S512x257_S1x512_0_1_1_0_n_n_wf : DotDims.WF S257x1 S512x257 S1x512 [0] [1] [1] [0] [] []
  dot_S1x257_S257x1_S1x1_1_0_0_1_n_n_wf : DotDims.WF S1x257 S257x1 S1x1 [1] [0] [0] [1] [] []
  dot_S1x512_S4096x512_S1x4096_1_1_0_0_n_n_wf : DotDims.WF S1x512 S4096x512 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x257.size a ≤ S512x257.size a
  hwx0_1 : ∀ i : grid0.Coords, EltTy.bits .f32 = 32 ∨ (Rect.block (s := S512x257) S512x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S257x1.size a ≤ S257x1.size a
  hwx0_2 : ∀ i : grid0.Coords, EltTy.bits .f32 = 32 ∨ (Rect.block (s := S257x1) S257x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x257.size a ≤ S1x257.size a
  hwx0_3 : ∀ i : grid0.Coords, EltTy.bits .f32 = 32 ∨ (Rect.block (s := S1x257) S1x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x131072.size a
  hwx0_5 : ∀ i : grid0.Coords, EltTy.bits .f32 = 32 ∨ (Rect.block (s := S1x131072) S1x4096.size (cc0_transform_5 i) (hinb0_5 i)).WholeWords (EltTy.packing .f32)

variable [Facts₀]

def dot_S257x1_S512x257_S1x512_0_1_1_0_n_n : DotDims S257x1 S512x257 S1x512 where
  lhsContracting := [0]
  rhsContracting := [1]
  lhsNonContracting := [1]
  rhsNonContracting := [0]
  lhsBatch := []
  rhsBatch := []
  wf := dot_S257x1_S512x257_S1x512_0_1_1_0_n_n_wf
def dot_S1x257_S257x1_S1x1_1_0_0_1_n_n : DotDims S1x257 S257x1 S1x1 where
  lhsContracting := [1]
  rhsContracting := [0]
  lhsNonContracting := [0]
  rhsNonContracting := [1]
  lhsBatch := []
  rhsBatch := []
  wf := dot_S1x257_S257x1_S1x1_1_0_0_1_n_n_wf
def dot_S1x512_S4096x512_S1x4096_1_1_0_0_n_n : DotDims S1x512 S4096x512 S1x4096 where
  lhsContracting := [1]
  rhsContracting := [1]
  lhsNonContracting := [0]
  rhsNonContracting := [0]
  lhsBatch := []
  rhsBatch := []
  wf := dot_S1x512_S4096x512_S1x4096_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S257x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S512x1 : Shape := ⟨2, ![512, 1]⟩
abbrev S1x512 : Shape := ⟨2, ![1, 512]⟩
abbrev S1x131072 : Shape := ⟨2, ![1, 131072]⟩
abbrev S1024x512 : Shape := ⟨2, ![1024, 512]⟩
abbrev S1x1024 : Shape := ⟨2, ![1, 1024]⟩
abbrev S131072 : Shape := ⟨1, ![131072]⟩
abbrev S131072x1 : Shape := ⟨2, ![131072, 1]⟩

abbrev nBuf : Space → Nat
  | .hbm => 12
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x257, .f32⟩
  | .hbm, ⟨2, _⟩ => ⟨S1x257, .f32⟩
  | .hbm, ⟨3, _⟩ => ⟨S257x1, .f32⟩
  | .hbm, ⟨4, _⟩ => ⟨S1x1, .f32⟩
  | .hbm, ⟨5, _⟩ => ⟨S512x1, .f32⟩
  | .hbm, ⟨6, _⟩ => ⟨S1x512, .f32⟩
  | .hbm, ⟨7, _⟩ => ⟨S1x1, .f32⟩
  | .hbm, ⟨8, _⟩ => ⟨S1x1, .f32⟩
  | .hbm, ⟨9, _⟩ => ⟨S1x131072, .f32⟩
  | .hbm, ⟨10, _⟩ => ⟨S131072, .f32⟩
  | .hbm, ⟨11, _⟩ => ⟨S131072x1, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x1, .f32⟩
  | .local _ .vmem, ⟨4, _⟩ => ⟨S1x1024, .f32⟩
  | .local _ .vmem, ⟨5, _⟩ => ⟨S1x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x1_S1x512_1_0 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  shapeCasts_S1x131072_S131072 : S1x131072.ShapeCasts S131072
  shapeCasts_S131072_S131072x1 : S131072.ShapeCasts S131072x1
  dot_S512x257_S257x1_S512x1_1_0_0_1_n_n_wf : DotDims.WF S512x257 S257x1 S512x1 [1] [0] [0] [1] [] []
  dot_S1x257_S257x1_S1x1_1_0_0_1_n_n_wf : DotDims.WF S1x257 S257x1 S1x1 [1] [0] [0] [1] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x131072.size a
  hwx0_3 : ∀ i : grid0.Coords, EltTy.bits .f32 = 32 ∨ (Rect.block (s := S1x131072) S1x1024.size (cc0_transform_3 i) (hinb0_3 i)).WholeWords (EltTy.packing .f32)

variable [Facts₀]

def dot_S512x257_S257x1_S512x1_1_0_0_1_n_n : DotDims S512x257 S257x1 S512x1 where
  lhsContracting := [1]
  rhsContracting := [0]
  lhsNonContracting := [0]
  rhsNonContracting := [1]
  lhsBatch := []
  rhsBatch := []
  wf := dot_S512x257_S257x1_S512x1_1_0_0_1_n_n_wf
def dot_S1x257_S257x1_S1x1_1_0_0_1_n_n : DotDims S1x257 S257x1 S1x1 where
  lhsContracting := [1]
  rhsContracting := [0]
  lhsNonContracting := [0]
  rhsNonContracting := [1]
  lhsBatch := []
  rhsBatch := []
  wf := dot_S1x257_S257x1_S1x1_1_0_0_1_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Collapsed.lean ====
/-
  The function both programs compute. Two linear layers with no activation between them are one affine map:
  for a row `x[r, ·]` of the batch,
      score r = Σ_k (Σ_h w1[k, h] · w2[h, 0]) · x[r, k] + (Σ_h b1[0, h] · w2[h, 0] + b2[0, 0]).
  The inner sum over the hidden axis `h` is the collapsed weight's entry `k`, the bracket on the right the collapsed
  bias. Stated on the extended reals over the arrays' literal shapes; the result is laid out as a row [1, 131072]
  (what the batch-tiled region writes) and as a column [131072, 1] (what @main returns).
-/
import Idealize.ShloMosaic.PureOps.Ideal
import Idealize.ShloMosaic.Lib.ValueIdx

noncomputable section

open scoped BigOperators

namespace Cert.Collapsed

open Idealize.ShloMosaic Idealize.ShloMosaic.ValueIdx

/-- Entry `k` of the collapsed weight `w1 · w2`: the hidden axis summed out. -/
def weight (w1 : (⟨2, ![512, 257]⟩ : Shape).Idx → EReal) (w2 : (⟨2, ![257, 1]⟩ : Shape).Idx → EReal) (k : Fin 512) : EReal :=
  ∑ h : Fin 257, w1 (ix2 k h) * w2 (ix2 h (0 : Fin 1))

/-- The collapsed bias `b1 · w2 + b2`. -/
def bias (b1 : (⟨2, ![1, 257]⟩ : Shape).Idx → EReal) (w2 : (⟨2, ![257, 1]⟩ : Shape).Idx → EReal)
    (b2 : (⟨2, ![1, 1]⟩ : Shape).Idx → EReal) : EReal :=
  ∑ h : Fin 257, b1 (ix2 (0 : Fin 1) h) * w2 (ix2 h (0 : Fin 1)) + b2 (ix2 (0 : Fin 1) (0 : Fin 1))

/-- The score of batch row `r`. -/
def score (x : (⟨2, ![131072, 512]⟩ : Shape).Idx → EReal) (w1 : (⟨2, ![512, 257]⟩ : Shape).Idx → EReal)
    (b1 : (⟨2, ![1, 257]⟩ : Shape).Idx → EReal) (w2 : (⟨2, ![257, 1]⟩ : Shape).Idx → EReal)
    (b2 : (⟨2, ![1, 1]⟩ : Shape).Idx → EReal) (r : Fin 131072) : EReal :=
  ∑ k : Fin 512, weight w1 w2 k * x (ix2 r k) + bias b1 w2 b2

/-- The scores as a lane-dense row. -/
def row (x : (⟨2, ![131072, 512]⟩ : Shape).Idx → EReal) (w1 : (⟨2, ![512, 257]⟩ : Shape).Idx → EReal)
    (b1 : (⟨2, ![1, 257]⟩ : Shape).Idx → EReal) (w2 : (⟨2, ![257, 1]⟩ : Shape).Idx → EReal)
    (b2 : (⟨2, ![1, 1]⟩ : Shape).Idx → EReal) : (⟨2, ![1, 131072]⟩ : Shape).Idx → EReal :=
  fun i => score x w1 b1 w2 b2 (i 1)

/-- The scores as a column: @main's result. -/
def column (x : (⟨2, ![131072, 512]⟩ : Shape).Idx → EReal) (w1 : (⟨2, ![512, 257]⟩ : Shape).Idx → EReal)
    (b1 : (⟨2, ![1, 257]⟩ : Shape).Idx → EReal) (w2 : (⟨2, ![257, 1]⟩ : Shape).Idx → EReal)
    (b2 : (⟨2, ![1, 1]⟩ : Shape).Idx → EReal) : (⟨2, ![131072, 1]⟩ : Shape).Idx → EReal :=
  fun i => score x w1 b1 w2 b2 (i 0)

/-- The collapsed weight with the factors in the other order (the hidden axis contracted from `w2`'s side):
    multiplication of extended reals commutes, term by term. -/
theorem weight_swapped (w1 : (⟨2, ![512, 257]⟩ : Shape).Idx → EReal) (w2 : (⟨2, ![257, 1]⟩ : Shape).Idx → EReal) (k : Fin 512) :
    ∑ h : Fin 257, w2 (ix2 h (0 : Fin 1)) * w1 (ix2 k h) = weight w1 w2 k :=
  Finset.sum_congr rfl fun h _ => mul_comm _ _

end Cert.Collapsed

end
-- ==== Proof.KernelBody.lean ====
/-
  The idealized kernel's body at one lane. The body collapses the two layers itself: it contracts the hidden axis of
  `w2` against `w1` (the collapsed weight as a row, the factors in the order `w2 · w1`), contracts `b1` against `w2` and
  adds `b2` (the collapsed bias), contracts the weight row against the batch tile's feature axis, and adds the bias to
  every lane. Each matrix product into a zero accumulator is a plain sum on the extended reals.
-/
import proofs.«135435_g2000102505428102_pallasbulk_307_2_alg».proof.Proof.Gen.KernelIdeal.Skeleton
import proofs.«135435_g2000102505428102_pallasbulk_307_2_alg».proof.Proof.LibContraction
import proofs.«135435_g2000102505428102_pallasbulk_307_2_alg».proof.Proof.Collapsed
import Idealize.ShloMosaic.Lib.Pipeline.Value

noncomputable section

open scoped BigOperators

namespace Cert.KernelIdeal.Body

open Idealize.ShloMosaic Idealize.ShloMosaic.ValueIdx Cert.Lib.Contraction
open Cert.KernelIdeal Cert.KernelIdeal.Gen

/-- The hidden axis of `w2` [257, 1] contracted against axis 1 of `w1` [512, 257]: entry `k` of the weight row. -/
theorem weightRow_apply (v0 : Vec Ideal S257x1 .f32) (v1 : Vec Ideal S512x257 .f32) (p : Fin 1) (k : Fin 512) :
    matmul (F := Ideal) (φ₁ := .f32) (φ₂ := .f32) dot_S257x1_S512x257_S1x512_0_1_1_0_n_n none v0 v1 (constant (F := Ideal) S1x512 .f32 0x00000000#32) (ix2 p k)
      = ∑ h : Fin 257, v0 (ix2 h (0 : Fin 1)) * v1 (ix2 k h) := by
  refine (Ideal.matmul_constant_zero_apply (φ₁ := .f32) (φ₂ := .f32) dot_S257x1_S512x257_S1x512_0_1_1_0_n_n none v0 v1 (ix2 p k)).trans ?_
  rw [sum_contr dot_S257x1_S512x257_S1x512_0_1_1_0_n_n (cl := 0) rfl 257 rfl]
  refine Finset.sum_congr rfl fun h _ => ?_
  congr 1
  · refine congrArg v0 (funext fun a => Fin.ext ?_)
    match a with
    | ⟨0, _⟩ => exact lhs_contracted dot_S257x1_S512x257_S1x512_0_1_1_0_n_n (cl := 0) rfl 257 rfl _ h
    | ⟨1, _⟩ => exact (lhs_free dot_S257x1_S512x257_S1x512_0_1_1_0_n_n (nl := 1) rfl rfl _ _ (by decide)).trans (by
        show (p : Nat) = 0
        omega)
  · refine congrArg v1 (funext fun a => Fin.ext ?_)
    match a with
    | ⟨0, _⟩ => exact rhs_free dot_S257x1_S512x257_S1x512_0_1_1_0_n_n (nl := 1) (nr := 0) rfl rfl rfl rfl _ _ (by decide)
    | ⟨1, _⟩ => exact rhs_contracted dot_S257x1_S512x257_S1x512_0_1_1_0_n_n (cl := 0) (cr := 1) rfl rfl 257 rfl _ h

/-- `b1` [1, 257] contracted against the hidden axis of `w2` [257, 1]: the one entry of `b1 · w2`. -/
theorem biasDot_apply (v3 : Vec Ideal S1x257 .f32) (v4 : Vec Ideal S257x1 .f32) (p q : Fin 1) :
    matmul (F := Ideal) (φ₁ := .f32) (φ₂ := .f32) dot_S1x257_S257x1_S1x1_1_0_0_1_n_n none v3 v4 (constant (F := Ideal) S1x1 .f32 0x00000000#32) (ix2 p q)
      = ∑ h : Fin 257, v3 (ix2 (0 : Fin 1) h) * v4 (ix2 h (0 : Fin 1)) := by
  refine (Ideal.matmul_constant_zero_apply (φ₁ := .f32) (φ₂ := .f32) dot_S1x257_S257x1_S1x1_1_0_0_1_n_n none v3 v4 (ix2 p q)).trans ?_
  rw [sum_contr dot_S1x257_S257x1_S1x1_1_0_0_1_n_n (cl := 1) rfl 257 rfl]
  refine Finset.sum_congr rfl fun h _ => ?_
  congr 1
  · refine congrArg v3 (funext fun a => Fin.ext ?_)
    match a with
    | ⟨0, _⟩ => exact (lhs_free dot_S1x257_S257x1_S1x1_1_0_0_1_n_n (nl := 0) rfl rfl _ _ (by decide)).trans (by
        show (p : Nat) = 0
        omega)
    | ⟨1, _⟩ => exact lhs_contracted dot_S1x257_S257x1_S1x1_1_0_0_1_n_n (cl := 1) rfl 257 rfl _ h
  · refine congrArg v4 (funext fun a => Fin.ext ?_)
    match a with
    | ⟨0, _⟩ => exact rhs_contracted dot_S1x257_S257x1_S1x1_1_0_0_1_n_n (cl := 1) (cr := 0) rfl rfl 257 rfl _ h
    | ⟨1, _⟩ => exact (rhs_free dot_S1x257_S257x1_S1x1_1_0_0_1_n_n (nl := 0) (nr := 1) rfl rfl rfl rfl _ _ (by decide)).trans (by
        show (q : Nat) = 0
        omega)

/-- The weight row [1, 512] contracted against the feature axis of the batch tile [4096, 512]: lane `q` of the tile's
    scores before the bias. -/
theorem tileDot_apply (v2 : FVec Ideal S1x512 .f32) (v8 : Vec Ideal S4096x512 .f32) (p : Fin 1) (q : Fin 4096) :
    matmul (F := Ideal) (φ₁ := .f32) (φ₂ := .f32) dot_S1x512_S4096x512_S1x4096_1_1_0_0_n_n none v2 v8 (constant (F := Ideal) S1x4096 .f32 0x00000000#32) (ix2 p q)
      = ∑ k : Fin 512, v2 (ix2 (0 : Fin 1) k) * v8 (ix2 q k) := by
  refine (Ideal.matmul_constant_zero_apply (φ₁ := .f32) (φ₂ := .f32) dot_S1x512_S4096x512_S1x4096_1_1_0_0_n_n none v2 v8 (ix2 p q)).trans ?_
  rw [sum_contr dot_S1x512_S4096x512_S1x4096_1_1_0_0_n_n (cl := 1) rfl 512 rfl]
  refine Finset.sum_congr rfl fun k _ => ?_
  congr 1
  · refine congrArg v2 (funext fun a => Fin.ext ?_)
    match a with
    | ⟨0, _⟩ => exact (lhs_free dot_S1x512_S4096x512_S1x4096_1_1_0_0_n_n (nl := 0) rfl rfl _ _ (by decide)).trans (by
        show (p : Nat) = 0
        omega)
    | ⟨1, _⟩ => exact lhs_contracted dot_S1x512_S4096x512_S1x4096_1_1_0_0_n_n (cl := 1) rfl 512 rfl _ k
  · refine congrArg v8 (funext fun a => Fin.ext ?_)
    match a with
    | ⟨0, _⟩ => exact rhs_free dot_S1x512_S4096x512_S1x4096_1_1_0_0_n_n (nl := 0) (nr := 0) rfl rfl rfl rfl _ _ (by decide)
    | ⟨1, _⟩ => exact rhs_contracted dot_S1x512_S4096x512_S1x4096_1_1_0_0_n_n (cl := 1) (cr := 1) rfl rfl 512 rfl _ k

/-- Lane `q` of what the body stores: the tile's row `q` against the weight row, plus the bias. -/
theorem pay_apply (v0 : Vec Ideal S257x1 .f32) (v1 : Vec Ideal S512x257 .f32) (v3 : Vec Ideal S1x257 .f32)
    (v4 : Vec Ideal S257x1 .f32) (v6 : Vec Ideal S1x1 .f32) (v8 : Vec Ideal S4096x512 .f32) (q : Fin 4096) :
    k0_pay1 (F := Ideal) v0 v1 v3 v4 v6 v8 (ix2 (0 : Fin 1) q)
      = ∑ k : Fin 512, (∑ h : Fin 257, v0 (ix2 h (0 : Fin 1)) * v1 (ix2 k h)) * v8 (ix2 q k)
        + (∑ h : Fin 257, v3 (ix2 (0 : Fin 1) h) * v4 (ix2 h (0 : Fin 1)) + v6 (ix2 (0 : Fin 1) (0 : Fin 1))) := by
  unfold k0_pay1
  rw [addf_apply, tileDot_apply]
  rw [broadcastTo_apply _ broadcasts_S1x1_S1x4096 (ix2 (0 : Fin 1) q) (ix2 (0 : Fin 1) (0 : Fin 1))
    (fun a => match a with | ⟨0, _⟩ => rfl | ⟨1, _⟩ => rfl)]
  rw [addf_apply, biasDot_apply]
  simp only [weightRow_apply]

end Cert.KernelIdeal.Body

end
-- ==== Proof.LibReshape.lean ====
/-
  A row reshaped to a column. A reshape keeps the row-major position of every entry, so a [1, n] row flattened to [n]
  and then laid out as an [n, 1] column has, at row `r` of the column, the row's lane `r`.
-/
import Idealize.ShloMosaic.Lib.Pipeline.Value
import Idealize.ShloMosaic.Lib.ValueIdx

noncomputable section

namespace Cert.Lib.Reshape

open Idealize.ShloMosaic Idealize.ShloMosaic.ValueIdx

/-- Row [1, n] → flat [n] → column [n, 1]: entry `(r, 0)` of the column is lane `r` of the row. -/
theorem rowToColumn_apply {α : Type} {n : Nat} (X : (⟨2, ![1, n]⟩ : Shape).Idx → α)
    (h1 : (⟨2, ![1, n]⟩ : Shape).ShapeCasts ⟨1, ![n]⟩) (h2 : (⟨1, ![n]⟩ : Shape).ShapeCasts ⟨2, ![n, 1]⟩)
    (i : (⟨2, ![n, 1]⟩ : Shape).Idx) :
    shapeCast ⟨2, ![n, 1]⟩ (shapeCast ⟨1, ![n]⟩ X h1) h2 i = X (ix2 (0 : Fin 1) (i 0)) := by
  have hi1 : (i 1).val < 1 := (i 1).isLt
  refine (shapeCast_apply _ h2 i (ix1 (i 0)) ?_).trans (shapeCast_apply _ h1 (ix1 (i 0)) (ix2 (0 : Fin 1) (i 0)) ?_)
  · rw [Shape.rowMajor_val_one, Shape.rowMajor_val_two]
    show (i 0).val = (i 0).val * 1 + (i 1).val
    omega
  · rw [Shape.rowMajor_val_one, Shape.rowMajor_val_two]
    show 0 * n + (i 0).val = (i 0).val
    rw [Nat.zero_mul, Nat.zero_add]

end Cert.Lib.Reshape

end
-- ==== Proof.KernelArray.lean ====
/-
  The idealized kernel's run, read. The region tiles the batch into 32 tiles of 4096 rows; at tile `t` the body sees rows
  `4096·t … 4096·t + 4095` of `x` and the four parameter arrays whole, and writes lanes `4096·t … 4096·t + 4095` of the scores
  row. The tiles cover the row, so the row after the region is the scores of the whole batch; the two reshapes after
  the region turn the row [1, 131072] into the column [131072, 1] without moving an entry.
-/
import proofs.«135435_g2000102505428102_pallasbulk_307_2_alg».proof.Proof.Gen.KernelIdeal.Frame
import proofs.«135435_g2000102505428102_pallasbulk_307_2_alg».proof.Proof.KernelBody
import proofs.«135435_g2000102505428102_pallasbulk_307_2_alg».proof.Proof.Collapsed
import proofs.«135435_g2000102505428102_pallasbulk_307_2_alg».proof.Proof.LibReshape
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Scores

open Idealize.ShloMosaic Idealize.ShloMosaic.TcCoe Idealize.SL.Sem Idealize.ShloMosaic.ValueIdx
open Idealize.ShloMosaic.Pipeline (Dat)
open Cert.KernelIdeal Cert.KernelIdeal.Gen Cert.Collapsed

variable (m : (ℓ : Loc nD τ sig) → Buf (Elt Ideal) ℓ) (ρ : Dev nD → PrngReg)

theorem hz : (![0, 0] : Fin 2 → Nat) = fun _ => 0 := funext fun a => by fin_cases a <;> rfl

/-- One lane of the body's store is the score of the batch row that lane's tile row is: the body's weight row is the
    collapsed weight with its factors in the other order. -/
theorem lane (x0 : Vec Ideal S4096x512 .f32) (x1 : Vec Ideal S512x257 .f32) (x2 : Vec Ideal S257x1 .f32)
    (x3 : Vec Ideal S1x257 .f32) (x4 : Vec Ideal S1x1 .f32) (X : S131072x512.Idx → EReal) (r : Fin 131072)
    (j : S1x4096.Idx) (h0 : ∀ k : Fin 512, x0 (ix2 (j 1) k) = X (ix2 r k)) :
    k0_pay1 (F := Ideal) x2 x1 x3 x2 x4 x0 j = score X x1 x3 x2 x4 r := by
  obtain ⟨p, q, rfl⟩ : ∃ (p : Fin 1) (q : Fin 4096), j = ix2 p q := ⟨j 0, j 1, eq_ix2 j⟩
  obtain rfl : p = 0 := Fin.ext (by omega)
  have h0' : ∀ k : Fin 512, x0 (ix2 q k) = X (ix2 r k) := h0
  rw [Body.pay_apply]
  unfold score bias
  refine congrArg₂ (· + ·) (Finset.sum_congr rfl fun k _ => ?_) rfl
  rw [h0' k]
  exact congrArg (· * X (ix2 r k)) (weight_swapped x1 x2 k)

/-- The printed index maps over the 32 tiles: the batch window and the scores window move with the tile, the four
    parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- A parameter window's one block is its whole array: `w1`, -/
theorem w1_block (c : Dev nD) (t : Fin cfg0.N) : (iblk m c 1 t : Vec Ideal S512x257 .f32) = V m c main_arg1 := by
  obtain ⟨-, -, e0, e1, -⟩ := idx_facts t
  funext y
  show V m c main_arg1 (((cfg0.win 1).blk t).view.emb y) = V m c main_arg1 y
  have hi : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 257 + 1 * (y 1).val = (y 1).val; omega
  rw [hi]

/-- `w2`, -/
theorem w2_block (c : Dev nD) (t : Fin cfg0.N) : (iblk m c 2 t : Vec Ideal S257x1 .f32) = V m c main_arg3 := by
  obtain ⟨-, -, -, -, e0, e1, -⟩ := idx_facts t
  funext y
  show V m c main_arg3 (((cfg0.win 2).blk t).view.emb y) = V m c main_arg3 y
  have hi : ((cfg0.win 2).blk t).view.emb y = y := by
    funext a; apply Fin.ext
    match a with
    | ⟨0, _⟩ => show win0_2.index t (0 : Fin 2) * 257 + 1 * (y 0).val = (y 0).val; omega
    | ⟨1, _⟩ => show win0_2.index t (1 : Fin 2) * 1 + 1 * (y 1).val = (y 1).val; omega
  rw [hi]

/-- `b1`, -/
theorem b1_block (c : Dev nD) (t : Fin cfg0.N) : (iblk m c 3 t : Vec Ideal S1x257 .f32) = V m c main_arg2 := by
  obtain ⟨-, -, -, -, -, -, e0, e1, -⟩ := idx_facts t
  funext y
  show V m c main_arg2 (((cfg0.win 3).blk t).view.emb y) = V m c main_arg2 y
  have hi : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 257 + 1 * (y 1).val = (y 1).val; omega
  rw [hi]

/-- and `b2`. -/
theorem b2_block (c : Dev nD) (t : Fin cfg0.N) : (iblk m c 4 t : Vec Ideal S1x1 .f32) = V m c main_arg4 := by
  obtain ⟨-, -, -, -, -, -, -, -, e0, e1, -⟩ := idx_facts t
  funext y
  show V m c main_arg4 (((cfg0.win 4).blk t).view.emb y) = V m c main_arg4 y
  have hi : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 1 + 1 * (y 1).val = (y 1).val; omega
  rw [hi]

/-- The scores row of the arrays as the region finds them. -/
abbrev scoresRow (c : Dev nD) : Buf (Elt Ideal) ((c : Thread nD τ).loc main_v0) :=
  row (V m c main_arg0) (V m c main_arg1) (V m c main_arg2) (V m c main_arg3) (V m c main_arg4)

/-- What tile `t` writes back is block `t` of the scores row. -/
theorem flushed_eq (c : Dev nD) (t : Fin cfg0.N) :
    (dats m 0 c).flushed 5 t = ((cfg0.win 5).blk t).view.read (Elt Ideal) (scoresRow m c) := by
  show (cfg0.win 5).cut (grid0.coords t) ((dats m 0 c).after 5 t) = _
  rw [after0_5]
  unfold out0_5
  rw [View.canon_unit_zero hz]
  simp only [View.ld_unit_zero (S := S257x1) hz, View.ld_unit_zero (S := S512x257) hz, View.ld_unit_zero (S := S1x257) hz,
    View.ld_unit_zero (S := S1x1) hz, View.ld_unit_zero (S := S4096x512) hz]
  obtain ⟨e00, e01, -, -, -, -, -, -, -, -, e50, e51⟩ := idx_facts t
  funext j
  show k0_pay1 (F := Ideal) (iblk m c 2 t) (iblk m c 1 t) (iblk m c 3 t) (iblk m c 2 t) (iblk m c 4 t) (iblk m c 0 t) j
    = score (V m c main_arg0) (V m c main_arg1) (V m c main_arg2) (V m c main_arg3) (V m c main_arg4)
        ((((cfg0.win 5).blk t).view.emb j) 1)
  rw [w1_block m c t, w2_block m c t, b1_block m c t, b2_block m c t]
  refine lane (iblk m c 0 t) (V m c main_arg1) (V m c main_arg3) (V m c main_arg2) (V m c main_arg4) (V m c main_arg0)
    ((((cfg0.win 5).blk t).view.emb j) 1) j (fun k => ?_)
  show V m c main_arg0 (((cfg0.win 0).blk t).view.emb (ix2 (j 1) k)) = V m c main_arg0 (ix2 ((((cfg0.win 5).blk t).view.emb j) 1) k)
  have hi : ((cfg0.win 0).blk t).view.emb (ix2 (j 1) k) = ix2 ((((cfg0.win 5).blk t).view.emb j) 1) k := by
    funext a; apply Fin.ext
    match a with
    | ⟨0, _⟩ => show win0_0.index t (0 : Fin 2) * 4096 + 1 * (j 1).val = win0_5.index t (1 : Fin 2) * 4096 + 1 * (j 1).val; omega
    | ⟨1, _⟩ => show win0_0.index t (1 : Fin 2) * 512 + 1 * k.val = k.val; omega
  exact congrArg (V m c main_arg0) hi

/-- An index of the row is in tile `t`'s block iff each coordinate is in the block's range on its axis. -/
theorem mem_blk (t : Fin cfg0.N) (i : S1x131072.Idx) :
    i ∈ ((cfg0.win 5).blk t).view.set ↔ ∀ a : Fin 2, win0_5.index t a * S1x4096.size a ≤ (i a).val ∧ (i a).val < win0_5.index t a * S1x4096.size a + S1x4096.size a := by
  show i ∈ ((View.whole main_v0).slice (win0_5.rect t)).set ↔ _
  rw [View.set_slice_whole, Rect.mem_set_unit]
  exact Iff.rfl

/-- Every lane of the row is in some tile's block: lane `l` in tile `l / 4096`. -/
theorem cover (i : S1x131072.Idx) : ∃ t : Fin cfg0.N, (cfg0.win 5).flush t = true ∧ i ∈ ((cfg0.win 5).blk t).view.set := by
  have hi0 : (i 0).val < 1 := (i 0).isLt
  have hi1 : (i 1).val < 131072 := (i 1).isLt
  have hN : grid0.N = 32 := N_0
  have hlt : (i 1).val / 4096 < grid0.N := by omega
  refine ⟨⟨(i 1).val / 4096, hlt⟩, flush0_5 _, ?_⟩
  rw [mem_blk]
  obtain ⟨-, -, -, -, -, -, -, -, -, -, e50, e51⟩ := idx_facts ⟨(i 1).val / 4096, hlt⟩
  have e51' : win0_5.index ⟨(i 1).val / 4096, hlt⟩ (1 : Fin 2) = (i 1).val / 4096 := e51
  intro a
  match a with
  | ⟨0, _⟩ => show win0_5.index ⟨(i 1).val / 4096, hlt⟩ (0 : Fin 2) * 1 ≤ (i 0).val ∧ (i 0).val < win0_5.index ⟨(i 1).val / 4096, hlt⟩ (0 : Fin 2) * 1 + 1; omega
  | ⟨1, _⟩ => show win0_5.index ⟨(i 1).val / 4096, hlt⟩ (1 : Fin 2) * 4096 ≤ (i 1).val ∧ (i 1).val < win0_5.index ⟨(i 1).val / 4096, hlt⟩ (1 : Fin 2) * 4096 + 4096; omega

/-- The scores row after the region. -/
theorem final (c : Dev nD) : (dats m 0 c).arrAt 5 cfg0.N = scoresRow m c :=
  (dats m 0 c).arrAt_eq_of_cover 5 (scoresRow m c) (fun t _ => flushed_eq m c t) cover

/-- @main's result: the two reshapes after the region read the row's lane `r` at the column's row `r`. -/
theorem result_eq (c : Dev nD) :
    Pipeline.afterTail₀ cfgs (dats m) 0 (V0 m) [hostOps1] c main_v2
      = column (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v2) = _
  after_results
  funext i
  show shapeCast S131072x1 (shapeCast S131072 (Pipeline.withArrays (cfgs 0).spec c (V0 m c)
      (fun w => (dats m 0 c).arrAt w (cfgs 0).N) (Proc.devRef .tc main_v0)) shapeCasts_S1x131072_S131072)
      shapeCasts_S131072_S131072x1 i = _
  rw [Cert.Lib.Reshape.rowToColumn_apply]
  refine (congrFun ((Pipeline.withArrays_arr spec0 launch0.win.arr_inj c (V0 m c)
    (fun w => (dats m 0 c).arrAt w cfg0.N) 5).trans (final m c)) (ix2 (0 : Fin 1) (i 0))).trans ?_
  show score (V m c main_arg0) (V m c main_arg1) (V m c main_arg2) (V m c main_arg3) (V m c main_arg4) (i 0)
    = score (m ((c : Thread nD τ).loc main_arg0)) (m ((c : Thread nD τ).loc main_arg1)) (m ((c : Thread nD τ).loc main_arg2))
        (m ((c : Thread nD τ).loc main_arg3)) (m ((c : Thread nD τ).loc main_arg4)) (i 0)
  rw [V_main_arg0 m c, V_main_arg1 m c, V_main_arg2 m c, V_main_arg3 m c, V_main_arg4 m c]

/-- The run, read: @main's result is the scores column of the arguments, and the arguments end as they began. -/
theorem run : θ_run defs (onTc (τ := τ) (main (F := Ideal))) ⟨m, fun _ => 0, ρ⟩ fun r => ∀ c : Dev nD,
      r.2.mem ((c.tc : Thread nD τ).loc main_v2)
        = column (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelIdeal.Scores

end
-- ==== Proof.RefBody.lean ====
/-
  The idealized reference's arithmetic, entry by entry. On the host it collapses the layers before the region:
  `w1 · w2` (a column, then transposed to a row) and `b1 · w2 + b2`; its kernel body contracts the weight row against
  the batch tile's feature axis and adds the bias to every lane. Each product is a plain sum on the extended reals.
-/
import proofs.«135435_g2000102505428102_pallasbulk_307_2_alg».proof.Proof.Gen.ReferenceIdeal.Skeleton
import proofs.«135435_g2000102505428102_pallasbulk_307_2_alg».proof.Proof.LibContraction
import proofs.«135435_g2000102505428102_pallasbulk_307_2_alg».proof.Proof.Collapsed
import Idealize.ShloMosaic.Lib.Pipeline.Value
import Idealize.ShloMosaic.Lib.ValueLayout

noncomputable section

open scoped BigOperators

namespace Cert.ReferenceIdeal.Body

open Idealize.ShloMosaic Idealize.ShloMosaic.ValueIdx Cert.Lib.Contraction Cert.Collapsed
open Cert.ReferenceIdeal Cert.ReferenceIdeal.Gen

/-- The host's `w1 · w2` [512, 1]: entry `k` is the collapsed weight's. -/
theorem hostWeight_apply (w1 : Vec Ideal S512x257 .f32) (w2 : Vec Ideal S257x1 .f32) (k : Fin 512) (p : Fin 1) :
    Host.dotGeneral (F := Ideal) (φ₁ := .f32) (φ₂ := .f32) dot_S512x257_S257x1_S512x1_1_0_0_1_n_n none w1 w2 (ix2 k p)
      = weight w1 w2 k := by
  refine (Ideal.dotGeneral_apply (φ₁ := .f32) (φ₂ := .f32) dot_S512x257_S257x1_S512x1_1_0_0_1_n_n none .single w1 w2 (ix2 k p)).trans ?_
  rw [sum_contr dot_S512x257_S257x1_S512x1_1_0_0_1_n_n (cl := 1) rfl 257 rfl]
  unfold weight
  refine Finset.sum_congr rfl fun h _ => ?_
  congr 1
  · refine congrArg w1 (funext fun a => Fin.ext ?_)
    match a with
    | ⟨0, _⟩ => exact lhs_free dot_S512x257_S257x1_S512x1_1_0_0_1_n_n (nl := 0) rfl rfl _ _ (by decide)
    | ⟨1, _⟩ => exact lhs_contracted dot_S512x257_S257x1_S512x1_1_0_0_1_n_n (cl := 1) rfl 257 rfl _ h
  · refine congrArg w2 (funext fun a => Fin.ext ?_)
    match a with
    | ⟨0, _⟩ => exact rhs_contracted dot_S512x257_S257x1_S512x1_1_0_0_1_n_n (cl := 1) (cr := 0) rfl rfl 257 rfl _ h
    | ⟨1, _⟩ => exact (rhs_free dot_S512x257_S257x1_S512x1_1_0_0_1_n_n (nl := 0) (nr := 1) rfl rfl rfl rfl _ _ (by decide)).trans (by
        show (p : Nat) = 0
        omega)

/-- The host's `b1 · w2` [1, 1]: its one entry. -/
theorem hostBiasDot_apply (b1 : Vec Ideal S1x257 .f32) (w2 : Vec Ideal S257x1 .f32) (p q : Fin 1) :
    Host.dotGeneral (F := Ideal) (φ₁ := .f32) (φ₂ := .f32) dot_S1x257_S257x1_S1x1_1_0_0_1_n_n none b1 w2 (ix2 p q)
      = ∑ h : Fin 257, b1 (ix2 (0 : Fin 1) h) * w2 (ix2 h (0 : Fin 1)) := by
  refine (Ideal.dotGeneral_apply (φ₁ := .f32) (φ₂ := .f32) dot_S1x257_S257x1_S1x1_1_0_0_1_n_n none .single b1 w2 (ix2 p q)).trans ?_
  rw [sum_contr dot_S1x257_S257x1_S1x1_1_0_0_1_n_n (cl := 1) rfl 257 rfl]
  refine Finset.sum_congr rfl fun h _ => ?_
  congr 1
  · refine congrArg b1 (funext fun a => Fin.ext ?_)
    match a with
    | ⟨0, _⟩ => exact (lhs_free dot_S1x257_S257x1_S1x1_1_0_0_1_n_n (nl := 0) rfl rfl _ _ (by decide)).trans (by
        show (p : Nat) = 0
        omega)
    | ⟨1, _⟩ => exact lhs_contracted dot_S1x257_S257x1_S1x1_1_0_0_1_n_n (cl := 1) rfl 257 rfl _ h
  · refine congrArg w2 (funext fun a => Fin.ext ?_)
    match a with
    | ⟨0, _⟩ => exact rhs_contracted dot_S1x257_S257x1_S1x1_1_0_0_1_n_n (cl := 1) (cr := 0) rfl rfl 257 rfl _ h
    | ⟨1, _⟩ => exact (rhs_free dot_S1x257_S257x1_S1x1_1_0_0_1_n_n (nl := 0) (nr := 1) rfl rfl rfl rfl _ _ (by decide)).trans (by
        show (q : Nat) = 0
        omega)

/-- The weight row the region is handed: the host's product transposed; entry `k` is the collapsed weight's. -/
theorem weightRow_apply (w1 : Vec Ideal S512x257 .f32) (w2 : Vec Ideal S257x1 .f32) (p : Fin 1) (k : Fin 512) :
    transpose S1x512 [1, 0] (Host.dotGeneral (F := Ideal) (φ₁ := .f32) (φ₂ := .f32) dot_S512x257_S257x1_S512x1_1_0_0_1_n_n none w1 w2)
      transposes_S512x1_S1x512_1_0 (ix2 p k) = weight w1 w2 k :=
  (transpose_ix2_apply _ transposes_S512x1_S1x512_1_0 p k).trans (hostWeight_apply w1 w2 k p)

/-- The bias the region is handed is the collapsed bias. -/
theorem biasCell_apply (b1 : Vec Ideal S1x257 .f32) (w2 : Vec Ideal S257x1 .f32) (b2 : Vec Ideal S1x1 .f32) (p q : Fin 1) :
    addf (F := Ideal) (φ := .f32) (Host.dotGeneral (F := Ideal) (φ₁ := .f32) (φ₂ := .f32) dot_S1x257_S257x1_S1x1_1_0_0_1_n_n none b1 w2) b2 (ix2 p q)
      = bias b1 w2 b2 := by
  obtain rfl : p = 0 := Fin.ext (by omega)
  obtain rfl : q = 0 := Fin.ext (by omega)
  rw [addf_apply, hostBiasDot_apply]
  rfl

/-- The weight row [1, 512] contracted against the feature axis of the batch tile [1024, 512]. -/
theorem tileDot_apply (v1 : FVec Ideal S1x512 .f32) (v2 : Vec Ideal S1024x512 .f32) (p : Fin 1) (q : Fin 1024) :
    matmul (F := Ideal) (φ₁ := .f32) (φ₂ := .f32) dot_S1x512_S1024x512_S1x1024_1_1_0_0_n_n none v1 v2 (constant (F := Ideal) S1x1024 .f32 0x00000000#32) (ix2 p q)
      = ∑ k : Fin 512, v1 (ix2 (0 : Fin 1) k) * v2 (ix2 q k) := by
  refine (Ideal.matmul_constant_zero_apply (φ₁ := .f32) (φ₂ := .f32) dot_S1x512_S1024x512_S1x1024_1_1_0_0_n_n none v1 v2 (ix2 p q)).trans ?_
  rw [sum_contr dot_S1x512_S1024x512_S1x1024_1_1_0_0_n_n (cl := 1) rfl 512 rfl]
  refine Finset.sum_congr rfl fun k _ => ?_
  congr 1
  · refine congrArg v1 (funext fun a => Fin.ext ?_)
    match a with
    | ⟨0, _⟩ => exact (lhs_free dot_S1x512_S1024x512_S1x1024_1_1_0_0_n_n (nl := 0) rfl rfl _ _ (by decide)).trans (by
        show (p : Nat) = 0
        omega)
    | ⟨1, _⟩ => exact lhs_contracted dot_S1x512_S1024x512_S1x1024_1_1_0_0_n_n (cl := 1) rfl 512 rfl _ k
  · refine congrArg v2 (funext fun a => Fin.ext ?_)
    match a with
    | ⟨0, _⟩ => exact rhs_free dot_S1x512_S1024x512_S1x1024_1_1_0_0_n_n (nl := 0) (nr := 0) rfl rfl rfl rfl _ _ (by decide)
    | ⟨1, _⟩ => exact rhs_contracted dot_S1x512_S1024x512_S1x1024_1_1_0_0_n_n (cl := 1) (cr := 1) rfl rfl 512 rfl _ k

/-- Lane `q` of what the body stores: the tile's row `q` against the weight row it is handed, plus the bias cell. -/
theorem pay_apply (v0 : Vec Ideal S1x512 .f32) (v2 : Vec Ideal S1024x512 .f32) (v4 : Vec Ideal S1x1 .f32) (q : Fin 1024) :
    k0_pay1 (F := Ideal) v0 v2 v4 (ix2 (0 : Fin 1) q)
      = ∑ k : Fin 512, v0 (ix2 (0 : Fin 1) k) * v2 (ix2 q k) + v4 (ix2 (0 : Fin 1) (0 : Fin 1)) := by
  unfold k0_pay1
  rw [shapeCast_self, shapeCast_self, addf_apply, tileDot_apply]
  rw [broadcastTo_apply _ broadcasts_S1x1_S1x1024 (ix2 (0 : Fin 1) q) (ix2 (0 : Fin 1) (0 : Fin 1))
    (fun a => match a with | ⟨0, _⟩ => rfl | ⟨1, _⟩ => rfl)]

end Cert.ReferenceIdeal.Body

end
-- ==== Proof.RefArray.lean ====
/-
  The idealized reference's run, read. Before the region the host computes the collapsed weight (as a row) and the
  collapsed bias. The region tiles the batch into 128 tiles of 1024 rows; at tile `t` the body sees rows
  `1024·t … 1024·t + 1023` of `x`, the weight row and the bias cell whole, and writes lanes `1024·t … 1024·t + 1023` of the
  scores row. The tiles cover the row; the two reshapes after the region turn it into the column.
-/
import proofs.«135435_g2000102505428102_pallasbulk_307_2_alg».proof.Proof.Gen.ReferenceIdeal.Frame
import proofs.«135435_g2000102505428102_pallasbulk_307_2_alg».proof.Proof.RefBody
import proofs.«135435_g2000102505428102_pallasbulk_307_2_alg».proof.Proof.Collapsed
import proofs.«135435_g2000102505428102_pallasbulk_307_2_alg».proof.Proof.LibReshape
import Idealize.ShloMosaic.Lib.Pipeline.Value
import Idealize.ShloMosaic.Lib.StableHlo.Run
import Idealize.ShloMosaic.Lib.Tactic

set_option maxRecDepth 16384

noncomputable section

open scoped BigOperators

namespace Cert.ReferenceIdeal.Scores

open Idealize.ShloMosaic Idealize.ShloMosaic.TcCoe Idealize.SL.Sem Idealize.ShloMosaic.ValueIdx
open Idealize.ShloMosaic.Pipeline (Dat)
open Cert.ReferenceIdeal Cert.ReferenceIdeal.Gen Cert.Collapsed

variable (m : (ℓ : Loc nD τ sig) → Buf (Elt Ideal) ℓ) (ρ : Dev nD → PrngReg)

theorem hz : (![0, 0] : Fin 2 → Nat) = fun _ => 0 := funext fun a => by fin_cases a <;> rfl

/-- One lane of the body's store is the score of the batch row that lane's tile row is, once the weight row it is
    handed is the collapsed weight and the bias cell the collapsed bias. -/
theorem lane (x0 : Vec Ideal S1024x512 .f32) (x1 : Vec Ideal S1x512 .f32) (x2 : Vec Ideal S1x1 .f32)
    (X : S131072x512.Idx → EReal) (W1 : S512x257.Idx → EReal) (B1 : S1x257.Idx → EReal) (W2 : S257x1.Idx → EReal)
    (B2 : S1x1.Idx → EReal) (r : Fin 131072) (j : S1x1024.Idx)
    (h0 : ∀ k : Fin 512, x0 (ix2 (j 1) k) = X (ix2 r k))
    (h1 : ∀ k : Fin 512, x1 (ix2 (0 : Fin 1) k) = weight W1 W2 k)
    (h2 : x2 (ix2 (0 : Fin 1) (0 : Fin 1)) = bias B1 W2 B2) :
    k0_pay1 (F := Ideal) x1 x0 x2 j = score X W1 B1 W2 B2 r := by
  obtain ⟨p, q, rfl⟩ : ∃ (p : Fin 1) (q : Fin 1024), j = ix2 p q := ⟨j 0, j 1, eq_ix2 j⟩
  obtain rfl : p = 0 := Fin.ext (by omega)
  have h0' : ∀ k : Fin 512, x0 (ix2 q k) = X (ix2 r k) := h0
  rw [Body.pay_apply, h2]
  unfold score
  refine congrArg₂ (· + ·) (Finset.sum_congr rfl fun k _ => ?_) rfl
  rw [h0' k, h1 k]

/-- The weight row the region finds: the host's `w1 · w2`, transposed. -/
theorem V_weightRow (c : Dev nD) : (V m c main_v1 : S1x512.Idx → EReal)
    = transpose S1x512 [1, 0] (Host.dotGeneral (F := Ideal) (φ₁ := .f32) (φ₂ := .f32) dot_S512x257_S257x1_S512x1_1_0_0_1_n_n none
        (m ((c : Thread nD τ).loc main_arg1)) (m ((c : Thread nD τ).loc main_arg3))) transposes_S512x1_S1x512_1_0 := by
  show StableHlo.after hostOps0 (fun b => m (c, b)) (Proc.devRef .tc main_v1) = _
  after_results

/-- The bias cell the region finds: the host's `b1 · w2 + b2`. -/
theorem V_biasCell (c : Dev nD) : (V m c main_v3 : S1x1.Idx → EReal)
    = addf (F := Ideal) (φ := .f32) (Host.dotGeneral (F := Ideal) (φ₁ := .f32) (φ₂ := .f32) dot_S1x257_S257x1_S1x1_1_0_0_1_n_n none
        (m ((c : Thread nD τ).loc main_arg2)) (m ((c : Thread nD τ).loc main_arg3))) (m ((c : Thread nD τ).loc main_arg4)) := by
  show StableHlo.after hostOps0 (fun b => m (c, b)) (Proc.devRef .tc main_v3) = _
  after_results

/-- The printed index maps over the 128 tiles: the batch window and the scores window move with the tile, the weight
    row's and the bias cell's windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The weight row's window has one block, the whole row; -/
theorem weight_block (c : Dev nD) (t : Fin cfg0.N) : (iblk m c 1 t : Vec Ideal S1x512 .f32) = V m c main_v1 := by
  obtain ⟨-, -, e0, e1, -⟩ := idx_facts t
  funext y
  show V m c main_v1 (((cfg0.win 1).blk t).view.emb y) = V m c main_v1 y
  have hi : ((cfg0.win 1).blk t).view.emb y = y := by
    funext a; apply Fin.ext
    match a with
    | ⟨0, _⟩ => show win0_1.index t (0 : Fin 2) * 1 + 1 * (y 0).val = (y 0).val; omega
    | ⟨1, _⟩ => show win0_1.index t (1 : Fin 2) * 512 + 1 * (y 1).val = (y 1).val; omega
  rw [hi]

/-- the bias cell's likewise. -/
theorem bias_block (c : Dev nD) (t : Fin cfg0.N) : (iblk m c 2 t : Vec Ideal S1x1 .f32) = V m c main_v3 := by
  obtain ⟨-, -, -, -, e0, e1, -⟩ := idx_facts t
  funext y
  show V m c main_v3 (((cfg0.win 2).blk t).view.emb y) = V m c main_v3 y
  have hi : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 1 + 1 * (y 1).val = (y 1).val; omega
  rw [hi]

/-- The scores row of the arguments. -/
abbrev scoresRow (c : Dev nD) : Buf (Elt Ideal) ((c : Thread nD τ).loc main_v4) :=
  row (m ((c : Thread nD τ).loc main_arg0)) (m ((c : Thread nD τ).loc main_arg1)) (m ((c : Thread nD τ).loc main_arg2))
    (m ((c : Thread nD τ).loc main_arg3)) (m ((c : Thread nD τ).loc main_arg4))

/-- What tile `t` writes back is block `t` of the scores row. -/
theorem flushed_eq (c : Dev nD) (t : Fin cfg0.N) :
    (dats m 0 c).flushed 3 t = ((cfg0.win 3).blk t).view.read (Elt Ideal) (scoresRow m c) := by
  show (cfg0.win 3).cut (grid0.coords t) ((dats m 0 c).after 3 t) = _
  rw [after0_3]
  unfold out0_3
  rw [View.canon_unit_zero hz]
  simp only [View.ld_unit_zero (S := S1x512) hz, View.ld_unit_zero (S := S1024x512) hz, View.ld_unit_zero (S := S1x1) hz]
  obtain ⟨e00, e01, -, -, -, -, e30, e31⟩ := idx_facts t
  funext j
  show k0_pay1 (F := Ideal) (iblk m c 1 t) (iblk m c 0 t) (iblk m c 2 t) j
    = score (m ((c : Thread nD τ).loc main_arg0)) (m ((c : Thread nD τ).loc main_arg1)) (m ((c : Thread nD τ).loc main_arg2))
        (m ((c : Thread nD τ).loc main_arg3)) (m ((c : Thread nD τ).loc main_arg4)) ((((cfg0.win 3).blk t).view.emb j) 1)
  rw [weight_block m c t, bias_block m c t]
  refine lane (iblk m c 0 t) (V m c main_v1) (V m c main_v3) (m ((c : Thread nD τ).loc main_arg0))
    (m ((c : Thread nD τ).loc main_arg1)) (m ((c : Thread nD τ).loc main_arg2)) (m ((c : Thread nD τ).loc main_arg3))
    (m ((c : Thread nD τ).loc main_arg4)) ((((cfg0.win 3).blk t).view.emb j) 1) j (fun k => ?_) (fun k => ?_) ?_
  · show V m c main_arg0 (((cfg0.win 0).blk t).view.emb (ix2 (j 1) k))
      = m ((c : Thread nD τ).loc main_arg0) (ix2 ((((cfg0.win 3).blk t).view.emb j) 1) k)
    have hi : ((cfg0.win 0).blk t).view.emb (ix2 (j 1) k) = ix2 ((((cfg0.win 3).blk t).view.emb j) 1) k := by
      funext a; apply Fin.ext
      match a with
      | ⟨0, _⟩ => show win0_0.index t (0 : Fin 2) * 1024 + 1 * (j 1).val = win0_3.index t (1 : Fin 2) * 1024 + 1 * (j 1).val; omega
      | ⟨1, _⟩ => show win0_0.index t (1 : Fin 2) * 512 + 1 * k.val = k.val; omega
    rw [V_main_arg0 m c]
    exact congrArg (m ((c : Thread nD τ).loc main_arg0)) hi
  · rw [V_weightRow m c]
    exact Body.weightRow_apply _ _ 0 k
  · rw [V_biasCell m c]
    exact Body.biasCell_apply _ _ _ 0 0

/-- An index of the row is in tile `t`'s block iff each coordinate is in the block's range on its axis. -/
theorem mem_blk (t : Fin cfg0.N) (i : S1x131072.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v4).slice (win0_3.rect t)).set ↔ _
  rw [View.set_slice_whole, Rect.mem_set_unit]
  exact Iff.rfl

/-- Every lane of the row is in some tile's block: lane `l` in tile `l / 1024`. -/
theorem cover (i : S1x131072.Idx) : ∃ t : Fin cfg0.N, (cfg0.win 3).flush t = true ∧ i ∈ ((cfg0.win 3).blk t).view.set := by
  have hi0 : (i 0).val < 1 := (i 0).isLt
  have hi1 : (i 1).val < 131072 := (i 1).isLt
  have hN : grid0.N = 128 := N_0
  have hlt : (i 1).val / 1024 < grid0.N := by omega
  refine ⟨⟨(i 1).val / 1024, hlt⟩, flush0_3 _, ?_⟩
  rw [mem_blk]
  obtain ⟨-, -, -, -, -, -, e30, e31⟩ := idx_facts ⟨(i 1).val / 1024, hlt⟩
  have e31' : win0_3.index ⟨(i 1).val / 1024, hlt⟩ (1 : Fin 2) = (i 1).val / 1024 := e31
  intro a
  match a with
  | ⟨0, _⟩ => show win0_3.index ⟨(i 1).val / 1024, hlt⟩ (0 : Fin 2) * 1 ≤ (i 0).val ∧ (i 0).val < win0_3.index ⟨(i 1).val / 1024, hlt⟩ (0 : Fin 2) * 1 + 1; omega
  | ⟨1, _⟩ => show win0_3.index ⟨(i 1).val / 1024, hlt⟩ (1 : Fin 2) * 1024 ≤ (i 1).val ∧ (i 1).val < win0_3.index ⟨(i 1).val / 1024, hlt⟩ (1 : Fin 2) * 1024 + 1024; omega

/-- The scores row after the region. -/
theorem final (c : Dev nD) : (dats m 0 c).arrAt 3 cfg0.N = scoresRow m c :=
  (dats m 0 c).arrAt_eq_of_cover 3 (scoresRow m c) (fun t _ => flushed_eq m c t) cover

/-- @main's result: the two reshapes after the region read the row's lane `r` at the column's row `r`. -/
theorem result_eq (c : Dev nD) :
    Pipeline.afterTail₀ cfgs (dats m) 0 (V0 m) [hostOps1] c main_v6
      = column (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  funext i
  show shapeCast S131072x1 (shapeCast S131072 (Pipeline.withArrays (cfgs 0).spec c (V0 m c)
      (fun w => (dats m 0 c).arrAt w (cfgs 0).N) (Proc.devRef .tc main_v4)) shapeCasts_S1x131072_S131072)
      shapeCasts_S131072_S131072x1 i = _
  rw [Cert.Lib.Reshape.rowToColumn_apply]
  exact congrFun ((Pipeline.withArrays_arr spec0 launch0.win.arr_inj c (V0 m c)
    (fun w => (dats m 0 c).arrAt w cfg0.N) 3).trans (final m c)) (ix2 (0 : Fin 1) (i 0))

/-- The run, read: @main's result is the scores column of the arguments, and the arguments end as they began. -/
theorem run : θ_run defs (onTc (τ := τ) (main (F := Ideal))) ⟨m, fun _ => 0, ρ⟩ fun r => ∀ c : Dev nD,
      r.2.mem ((c.tc : Thread nD τ).loc main_v6)
        = column (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Scores

end
-- ==== Proof.lean ====
/-
  The certificate: a batch-tiled kernel that fuses two activation-free linear layers, against a reference that
  collapses the layers on the host and then runs its own batch-tiled kernel.

  Both compute, for every batch row `r`,
      score r = Σ_k (Σ_h w1[k, h] · w2[h, 0]) · x[r, k] + (Σ_h b1[0, h] · w2[h, 0] + b2[0, 0]),
  and return the scores as a column. The kernel recomputes the collapsed weight inside its body with the factors in the
  order `w2[h, 0] · w1[k, h]`; on the extended reals that is the same sum term by term, because multiplication commutes
  — the one law the two sides need, and it holds at the infinities too, so the inputs' finiteness is never used. The
  kernel walks the batch in 32 tiles of 4096 rows and the reference in 128 tiles of 1024; each tiling covers the scores
  row, and a lane's score depends on its own batch row only, so the tilings agree entry by entry.

  The three frames are the generated ones. The idealization rewrote nothing, so there is nothing to preserve. For the
  value claim each program's run is read off its generated frame: what a tile writes back, the cover of the row by the
  tiles, the row after the region, and the two reshapes after it.
-/
import proofs.«135435_g2000102505428102_pallasbulk_307_2_alg».proof.Defs
import proofs.«135435_g2000102505428102_pallasbulk_307_2_alg».proof.Proof.Gen.Kernel
import proofs.«135435_g2000102505428102_pallasbulk_307_2_alg».proof.Proof.Gen.Kernel.Skeleton
import proofs.«135435_g2000102505428102_pallasbulk_307_2_alg».proof.Proof.Gen.Kernel.Launch
import proofs.«135435_g2000102505428102_pallasbulk_307_2_alg».proof.Proof.Gen.Kernel.Points
import proofs.«135435_g2000102505428102_pallasbulk_307_2_alg».proof.Proof.Gen.Kernel.Frame
import proofs.«135435_g2000102505428102_pallasbulk_307_2_alg».proof.Proof.Gen.KernelIdeal
import proofs.«135435_g2000102505428102_pallasbulk_307_2_alg».proof.Proof.Gen.KernelIdeal.Skeleton
import proofs.«135435_g2000102505428102_pallasbulk_307_2_alg».proof.Proof.Gen.KernelIdeal.Launch
import proofs.«135435_g2000102505428102_pallasbulk_307_2_alg».proof.Proof.Gen.KernelIdeal.Points
import proofs.«135435_g2000102505428102_pallasbulk_307_2_alg».proof.Proof.Gen.KernelIdeal.Frame
import proofs.«135435_g2000102505428102_pallasbulk_307_2_alg».proof.Proof.Gen.ReferenceIdeal
import proofs.«135435_g2000102505428102_pallasbulk_307_2_alg».proof.Proof.Gen.ReferenceIdeal.Skeleton
import proofs.«135435_g2000102505428102_pallasbulk_307_2_alg».proof.Proof.Gen.ReferenceIdeal.Launch
import proofs.«135435_g2000102505428102_pallasbulk_307_2_alg».proof.Proof.Gen.ReferenceIdeal.Points
import proofs.«135435_g2000102505428102_pallasbulk_307_2_alg».proof.Proof.Gen.ReferenceIdeal.Frame
import proofs.«135435_g2000102505428102_pallasbulk_307_2_alg».proof.Proof.Gen.Pre_finite_inputs
import proofs.«135435_g2000102505428102_pallasbulk_307_2_alg».proof.Proof.KernelArray
import proofs.«135435_g2000102505428102_pallasbulk_307_2_alg».proof.Proof.RefArray
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- So does its idealization, -/
theorem frame_kernelIdeal : Cert.frame_KernelIdeal := fun m ρ _ => Cert.KernelIdeal.Gen.frame m ρ

/-- and the idealized reference. -/
theorem frame_referenceIdeal : Cert.frame_ReferenceIdeal := fun m ρ _ => Cert.ReferenceIdeal.Gen.frame m ρ

/-- From memories that agree on the five arguments, both idealized programs end with the scores column of those
    arguments: the kernel's run and the reference's run are posted at the same function, the reference's after
    rewriting its arguments to the kernel's. -/
theorem algebraic : Cert.algebraic_KernelIdeal_ReferenceIdeal := by
  intro m ρ m' ρ' _ hagree
  refine ⟨fun c => Cert.Collapsed.column
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Scores.run m ρ, ?_⟩
  refine (θ_run Cert.ReferenceIdeal.defs _ _).mono (fun _ h c => ?_) (Cert.ReferenceIdeal.Scores.run m' ρ')
  obtain ⟨h0, h1, h2, h3, h4⟩ := hagree c
  refine ⟨(h c).1.trans ?_, (h c).2⟩
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
